-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1x1x128 : Shape := ⟨4, ![8192, 1, 1, 128]⟩
abbrev S1x16384x1x128 : Shape := ⟨4, ![1, 16384, 1, 128]⟩
abbrev S_ : Shape := ⟨0, ![]⟩

class Facts : Prop where
  bcast_S_S8192x1x1x128 : S_.BroadcastsInDim S8192x1x1x128 (![] : Fin 0 → Fin S8192x1x1x128.rank)
  reducesTo_S8192x1x1x128_S_d0_1_2_3 : S8192x1x1x128.ReducesTo [0, 1, 2, 3] S_
  h_S_ : 0 < S_.numel
  bcast_S_S1x16384x1x128 : S_.BroadcastsInDim S1x16384x1x128 (![] : Fin 0 → Fin S1x16384x1x128.rank)
  reducesTo_S1x16384x1x128_S_d0_1_2_3 : S1x16384x1x128.ReducesTo [0, 1, 2, 3] S_

variable [Facts]

def fn {F : FTy → Type} [FloatOps F] (main_arg0 : FVec F S8192x1x1x128 .f32) (main_arg1 : FVec F S1x16384x1x128 .f32) : IVec S_ 1 :=
  let main_v0 : FVec F S8192x1x1x128 .f32 := Host.absf main_arg0
  let main_cst : FVec F S_ .f32 := constant S_ .f32 0x7F800000#32
  let main_v1 : FVec F S8192x1x1x128 .f32 := broadcastInDim S8192x1x1x128 ![] bcast_S_S8192x1x1x128 main_cst
  let main_v2 : IVec S8192x1x1x128 1 := cmpf .olt main_v0 main_v1
  let main_c : IVec S_ 1 := constantI S_ 1 1#1
  let main_v3 : IVec S_ 1 := (fun x v => Host.reduce IntOp.andi x v reducesTo_S8192x1x1x128_S_d0_1_2_3 h_S_) main_v2 main_c
  let main_v4 : FVec F S1x16384x1x128 .f32 := Host.absf main_arg1
  let main_cst_0 : FVec F S_ .f32 := constant S_ .f32 0x7F800000#32
  let main_v5 : FVec F S1x16384x1x128 .f32 := broadcastInDim S1x16384x1x128 ![] bcast_S_S1x16384x1x128 main_cst_0
  let main_v6 : IVec S1x16384x1x128 1 := cmpf .olt main_v4 main_v5
  let main_c_1 : IVec S_ 1 := constantI S_ 1 1#1
  let main_v7 : IVec S_ 1 := (fun x v => Host.reduce IntOp.andi x v reducesTo_S1x16384x1x128_S_d0_1_2_3 h_S_) main_v6 main_c_1
  let main_v8 : IVec S_ 1 := andi main_v3 main_v7
  main_v8
-- ==== Kernel.lean ====
abbrev S8192x1x1x128 : Shape := ⟨4, ![8192, 1, 1, 128]⟩
abbrev S1x16384x1x128 : Shape := ⟨4, ![1, 16384, 1, 128]⟩
abbrev S8192x128 : Shape := ⟨2, ![8192, 128]⟩
abbrev S16384x128 : Shape := ⟨2, ![16384, 128]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S8192x1 : Shape := ⟨2, ![8192, 1]⟩
abbrev S512x128 : Shape := ⟨2, ![512, 128]⟩
abbrev S512x1 : Shape := ⟨2, ![512, 1]⟩
abbrev S512 : Shape := ⟨1, ![512]⟩
abbrev S1024x128 : Shape := ⟨2, ![1024, 128]⟩
abbrev S1x1024 : Shape := ⟨2, ![1, 1024]⟩
abbrev S512x1024 : Shape := ⟨2, ![512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S8192x1x1x128, .f32⟩
  | .hbm, ⟨1, _⟩ => ⟨S1x16384x1x128, .f32⟩
  | .hbm, ⟨2, _⟩ => ⟨S8192x128, .f32⟩
  | .hbm, ⟨3, _⟩ => ⟨S16384x128, .f32⟩
  | .hbm, ⟨4, _⟩ => ⟨S16384x128, .bf16⟩
  | .hbm, ⟨5, _⟩ => ⟨S16384x128, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S1x16384, .f32⟩
  | .hbm, ⟨10, _⟩ => ⟨S8192x1, .f32⟩
  | .local _ .vmem, ⟨0, _⟩ => ⟨S512x128, .f32⟩
  | .local _ .vmem, ⟨1, _⟩ => ⟨S512x128, .f32⟩
  | .local _ .vmem, ⟨2, _⟩ => ⟨S16384x128, .bf16⟩
  | .local _ .vmem, ⟨3, _⟩ => ⟨S1x16384, .f32⟩
  | .local _ .vmem, ⟨4, _⟩ => ⟨S512x1, .f32⟩
  | .local _ .vmem, ⟨5, _⟩ => ⟨S512x1, .f32⟩
  | .local _ .vmem, ⟨6, _⟩ => ⟨S512x1, .f32⟩
  | _, _ => ⟨S8192x1x1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c1024_i32 : BitVec 32 := 1024#32
  let v10 : BitVec 32 := Scalar.muli c0_i32 c1024_i32
  v10
def k0_off1 (c0_i32 : BitVec 32) : Fin 2 → Nat :=
  let c1024_i32 : BitVec 32 := 1024#32
  let v10 : BitVec 32 := Scalar.muli c0_i32 c1024_i32
  let v11 : BitVec 32 := v10
  let v12 : Index := Scalar.indexCast v11
  let c0_4 : Index := 0#32
  ![v12.toNat, 0]
def k0_off2 (c0_i32 : BitVec 32) : Fin 2 → Nat :=
  let c0_5 : Index := 0#32
  let c1024_i32 : BitVec 32 := 1024#32
  let v10 : BitVec 32 := Scalar.muli c0_i32 c1024_i32
  let v11 : BitVec 32 := v10
  let v15 : Index := Scalar.indexCast v11
  ![0, v15.toNat]
def k0_mult2 : BitVec 32 :=
  let c1_i32 : BitVec 32 := 1#32
  let c1024_i32_13 : BitVec 32 := 1024#32
  let v32 : BitVec 32 := Scalar.muli c1_i32 c1024_i32_13
  v32
def k0_mult3 : BitVec 32 :=
  let c2_i32 : BitVec 32 := 2#32
  let c1024_i32_23 : BitVec 32 := 1024#32
  let v54 : BitVec 32 := Scalar.muli c2_i32 c1024_i32_23
  v54
def k0_mult4 : BitVec 32 :=
  let c3_i32 : BitVec 32 := 3#32
  let c1024_i32_33 : BitVec 32 := 1024#32
  let v76 : BitVec 32 := Scalar.muli c3_i32 c1024_i32_33
  v76
def k0_mult5 : BitVec 32 :=
  let c4_i32 : BitVec 32 := 4#32
  let c1024_i32_43 : BitVec 32 := 1024#32
  let v98 : BitVec 32 := Scalar.muli c4_i32 c1024_i32_43
  v98
def k0_mult6 : BitVec 32 :=
  let c5_i32 : BitVec 32 := 5#32
  let c1024_i32_53 : BitVec 32 := 1024#32
  let v120 : BitVec 32 := Scalar.muli c5_i32 c1024_i32_53
  v120
def k0_mult7 : BitVec 32 :=
  let c6_i32 : BitVec 32 := 6#32
  let c1024_i32_63 : BitVec 32 := 1024#32
  let v142 : BitVec 32 := Scalar.muli c6_i32 c1024_i32_63
  v142
def k0_mult8 : BitVec 32 :=
  let c7_i32 : BitVec 32 := 7#32
  let c1024_i32_73 : BitVec 32 := 1024#32
  let v164 : BitVec 32 := Scalar.muli c7_i32 c1024_i32_73
  v164
def k0_mult9 : BitVec 32 :=
  let c8_i32 : BitVec 32 := 8#32
  let c1024_i32_83 : BitVec 32 := 1024#32
  let v186 : BitVec 32 := Scalar.muli c8_i32 c1024_i32_83
  v186
def k0_mult10 : BitVec 32 :=
  let c9_i32 : BitVec 32 := 9#32
  let c1024_i32_93 : BitVec 32 := 1024#32
  let v208 : BitVec 32 := Scalar.muli c9_i32 c1024_i32_93
  v208
def k0_mult11 : BitVec 32 :=
  let c10_i32 : BitVec 32 := 10#32
  let c1024_i32_103 : BitVec 32 := 1024#32
  let v230 : BitVec 32 := Scalar.muli c10_i32 c1024_i32_103
  v230
def k0_mult12 : BitVec 32 :=
  let c11_i32 : BitVec 32 := 11#32
  let c1024_i32_113 : BitVec 32 := 1024#32
  let v252 : BitVec 32 := Scalar.muli c11_i32 c1024_i32_113
  v252
def k0_mult13 : BitVec 32 :=
  let c12_i32 : BitVec 32 := 12#32
  let c1024_i32_123 : BitVec 32 := 1024#32
  let v274 : BitVec 32 := Scalar.muli c12_i32 c1024_i32_123
  v274
def k0_mult14 : BitVec 32 :=
  let c13_i32 : BitVec 32 := 13#32
  let c1024_i32_133 : BitVec 32 := 1024#32
  let v296 : BitVec 32 := Scalar.muli c13_i32 c1024_i32_133
  v296
def k0_mult15 : BitVec 32 :=
  let c14_i32 : BitVec 32 := 14#32
  let c1024_i32_143 : BitVec 32 := 1024#32
  let v318 : BitVec 32 := Scalar.muli c14_i32 c1024_i32_143
  v318
def k0_mult16 : BitVec 32 :=
  let c15_i32 : BitVec 32 := 15#32
  let c1024_i32_153 : BitVec 32 := 1024#32
  let v340 : BitVec 32 := Scalar.muli c15_i32 c1024_i32_153
  v340
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8192x1x1x128_S8192x128 : S8192x1x1x128.ShapeCasts S8192x128
  shapeCasts_S1x16384x1x128_S16384x128 : S1x16384x1x128.ShapeCasts S16384x128
  bitsLt_bf16_f32 : FTy.bits .bf16 < FTy.bits .f32
  reducesTo_S16384x128_S16384_d1 : S16384x128.ReducesTo [1] S16384
  h_S_ : 0 < S_.numel
  bcast_S16384_S16384x1_0 : S16384.BroadcastsInDim S16384x1 (![0] : Fin 1 → Fin S16384x1.rank)
  shapeCasts_S16384x1_S1x16384 : S16384x1.ShapeCasts S1x16384
  inb_S512x128_S512x128_0_0 : ∀ a, (![0, 0] : Fin 2 → Nat) a + S512x128.size a ≤ S512x128.size a
  h_S512x128 : 0 < S512x128.numel
  shapeCasts_S512x128_S512x128 : S512x128.ShapeCasts S512x128
  reduces_S512x128_S512 : S512x128.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  h_S1024x128 : 0 < S1024x128.numel
  shapeCasts_S1024x128_S1024x128 : S1024x128.ShapeCasts S1024x128
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  reduces_S512x1024_S512 : S512x1024.Reduces [1] S512
  dot_S512x128_S1024x128_S512x1024_1_1_0_0_n_n_wf : DotDims.WF S512x128 S1024x128 S512x1024 [1] [1] [0] [0] [] []
  hrank0 : 0 < grid0.rank
  k0_mult1_dvd : 1024 ∣ k0_mult1.toNat
  k0_off1_inb : ∀ (r : Fin 16), ∀ a, (k0_off1 (BitVec.ofNat 32 r.val)) a + S1024x128.size a ≤ S16384x128.size a
  k0_off2_inb : ∀ (r : Fin 16), ∀ a, (k0_off2 (BitVec.ofNat 32 r.val)) a + S1x1024.size a ≤ S1x16384.size a
  k0_mult2_dvd : 1024 ∣ k0_mult2.toNat
  k0_mult3_dvd : 1024 ∣ k0_mult3.toNat
  k0_mult4_dvd : 1024 ∣ k0_mult4.toNat
  k0_mult5_dvd : 1024 ∣ k0_mult5.toNat
  k0_mult6_dvd : 1024 ∣ k0_mult6.toNat
  k0_mult7_dvd : 1024 ∣ k0_mult7.toNat
  k0_mult8_dvd : 1024 ∣ k0_mult8.toNat
  k0_mult9_dvd : 1024 ∣ k0_mult9.toNat
  k0_mult10_dvd : 1024 ∣ k0_mult10.toNat
  k0_mult11_dvd : 1024 ∣ k0_mult11.toNat
  k0_mult12_dvd : 1024 ∣ k0_mult12.toNat
  k0_mult13_dvd : 1024 ∣ k0_mult13.toNat
  k0_mult14_dvd : 1024 ∣ k0_mult14.toNat
  k0_mult15_dvd : 1024 ∣ k0_mult15.toNat
  k0_mult16_dvd : 1024 ∣ k0_mult16.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x128.size a
  hwx0_0 : ∀ i : grid0.Coords, EltTy.bits .f32 = 32 ∨ (Rect.block (s := S8192x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S16384x128.size a
  hwx0_1 : ∀ i : grid0.Coords, EltTy.bits .bf16 = 32 ∨ (Rect.block (s := S16384x128) S16384x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16384.size a ≤ S1x16384.size a
  hwx0_2 : ∀ i : grid0.Coords, EltTy.bits .f32 = 32 ∨ (Rect.block (s := S1x16384) S1x16384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .f32 = 32 ∨ (Rect.block (s := S8192x1) S512x1.size (cc0_transform_3 i) (hinb0_3 i)).WholeWords (EltTy.packing .f32)

variable [Facts₀]

def dot_S512x128_S1024x128_S512x1024_1_1_0_0_n_n : DotDims S512x128 S1024x128 S512x1024 where
  lhsContracting := [1]
  rhsContracting := [1]
  lhsNonContracting := [0]
  rhsNonContracting := [0]
  lhsBatch := []
  rhsBatch := []
  wf := dot_S512x128_S1024x128_S512x1024_1_1_0_0_n_n_wf

abbrev win0_0 : Pipeline.Window sig grid0 :=
  Pipeline.Window.ofSpec (Memref.whole main_v0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S16384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x16384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x1x1x128 : Shape := ⟨4, ![8192, 1, 1, 128]⟩
abbrev S1x16384x1x128 : Shape := ⟨4, ![1, 16384, 1, 128]⟩
abbrev S8192x128 : Shape := ⟨2, ![8192, 128]⟩
abbrev S16384x128 : Shape := ⟨2, ![16384, 128]⟩
abbrev S_ : Shape := ⟨0, ![]⟩
abbrev S8192 : Shape := ⟨1, ![8192]⟩
abbrev S16384 : Shape := ⟨1, ![16384]⟩
abbrev S8192x16384 : Shape := ⟨2, ![8192, 16384]⟩
abbrev S8192x1 : Shape := ⟨2, ![8192, 1]⟩
abbrev S1x16384 : Shape := ⟨2, ![1, 16384]⟩

abbrev nBuf : Space → Nat
  | .hbm => 27
  | .vmem => 0
  | .smem => 0
  | _ => 0

abbrev bufTy : (tb : Table) → Fin (tcTables nBuf tb) → BufTy
  | .hbm, ⟨0, _⟩ => ⟨S8192x1x1x128, .f32⟩
  | .hbm, ⟨1, _⟩ => ⟨S1x16384x1x128, .f32⟩
  | .hbm, ⟨2, _⟩ => ⟨S8192x128, .f32⟩
  | .hbm, ⟨3, _⟩ => ⟨S16384x128, .f32⟩
  | .hbm, ⟨4, _⟩ => ⟨S8192x128, .f32⟩
  | .hbm, ⟨5, _⟩ => ⟨S_, .f32⟩
  | .hbm, ⟨6, _⟩ => ⟨S8192, .f32⟩
  | .hbm, ⟨7, _⟩ => ⟨S16384x128, .f32⟩
  | .hbm, ⟨8, _⟩ => ⟨S_, .f32⟩
  | .hbm, ⟨9, _⟩ => ⟨S16384, .f32⟩
  | .hbm, ⟨10, _⟩ => ⟨S8192x16384, .f32⟩
  | .hbm, ⟨11, _⟩ => ⟨S8192x1, .f32⟩
  | .hbm, ⟨12, _⟩ => ⟨S1x16384, .f32⟩
  | .hbm, ⟨13, _⟩ => ⟨S8192x16384, .f32⟩
  | .hbm, ⟨14, _⟩ => ⟨S8192x16384, .f32⟩
  | .hbm, ⟨15, _⟩ => ⟨S8192x16384, .f32⟩
  | .hbm, ⟨16, _⟩ => ⟨S_, .f32⟩
  | .hbm, ⟨17, _⟩ => ⟨S8192x16384, .f32⟩
  | .hbm, ⟨18, _⟩ => ⟨S8192x16384, .f32⟩
  | .hbm, ⟨19, _⟩ => ⟨S8192x16384, .f32⟩
  | .hbm, ⟨20, _⟩ => ⟨S_, .f32⟩
  | .hbm, ⟨21, _⟩ => ⟨S8192x16384, .f32⟩
  | .hbm, ⟨22, _⟩ => ⟨S8192x16384, .f32⟩
  | .hbm, ⟨23, _⟩ => ⟨S8192x16384, .f32⟩
  | .hbm, ⟨24, _⟩ => ⟨S_, .f32⟩
  | .hbm, ⟨25, _⟩ => ⟨S8192, .f32⟩
  | .hbm, ⟨26, _⟩ => ⟨S8192x1, .f32⟩
  | _, _ => ⟨S8192x1x1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  shapeCasts_S8192x1x1x128_S8192x128 : S8192x1x1x128.ShapeCasts S8192x128
  shapeCasts_S1x16384x1x128_S16384x128 : S1x16384x1x128.ShapeCasts S16384x128
  reducesTo_S8192x128_S8192_d1 : S8192x128.ReducesTo [1] S8192
  h_S_ : 0 < S_.numel
  reducesTo_S16384x128_S16384_d1 : S16384x128.ReducesTo [1] S16384
  bcast_S8192_S8192x1_0 : S8192.BroadcastsInDim S8192x1 (![0] : Fin 1 → Fin S8192x1.rank)
  bcast_S16384_S1x16384_1 : S16384.BroadcastsInDim S1x16384 (![1] : Fin 1 → Fin S1x16384.rank)
  bcast_S8192x1_S8192x16384_0_1 : S8192x1.BroadcastsInDim S8192x16384 (![0, 1] : Fin 2 → Fin S8192x16384.rank)
  bcast_S1x16384_S8192x16384_0_1 : S1x16384.BroadcastsInDim S8192x16384 (![0, 1] : Fin 2 → Fin S8192x16384.rank)
  bcast_S_S8192x16384 : S_.BroadcastsInDim S8192x16384 (![] : Fin 0 → Fin S8192x16384.rank)
  reducesTo_S8192x16384_S8192_d1 : S8192x16384.ReducesTo [1] S8192
  dot_S8192x128_S16384x128_S8192x16384_1_1_0_0_n_n_wf : DotDims.WF S8192x128 S16384x128 S8192x16384 [1] [1] [0] [0] [] []

variable [Facts₀]

def dot_S8192x128_S16384x128_S8192x16384_1_1_0_0_n_n : DotDims S8192x128 S16384x128 S8192x16384 where
  lhsContracting := [1]
  rhsContracting := [1]
  lhsNonContracting := [0]
  rhsNonContracting := [0]
  lhsBatch := []
  rhsBatch := []
  wf := dot_S8192x128_S16384x128_S8192x16384_1_1_0_0_n_n_wf

class Facts : Prop extends Facts₀ where

variable [Facts]
-- ==== Proof.MinLaws.lean ====
/-
  Order facts on the extended reals used to compare a running minimum taken chunk by chunk with one
  minimum over the whole range, and to move a monotone map through such a minimum.
-/
import Idealize.ShloMosaic.PureOps.Ideal
import Idealize.ShloMosaic.PureOps.Ideal.Laws

noncomputable section

namespace Cert.NearestDist

open Idealize.ShloMosaic

/-- The extended square root (bottom below zero, top at top) is monotone. -/
theorem sqrt_mono : Monotone Ideal.sqrt := by
  intro x y hxy
  induction x using EReal.rec with
  | bot => exact bot_le
  | top => rw [top_le_iff.mp hxy]
  | coe r =>
    induction y using EReal.rec with
    | bot => exact absurd hxy (by simp)
    | top => exact le_top
    | coe s =>
      have hrs : r ≤ s := EReal.coe_le_coe_iff.mp hxy
      simp only [Ideal.sqrt_coe]
      by_cases h2 : s < 0
      · have h1 : r < 0 := lt_of_le_of_lt hrs h2
        rw [if_pos h1, if_pos h2]
      · by_cases h1 : r < 0
        · rw [if_pos h1]; exact bot_le
        · rw [if_neg h1, if_neg h2]
          exact EReal.coe_le_coe_iff.mpr (Real.sqrt_le_sqrt hrs)

/-- Clamp below at `z`, then take the root: the map applied to a squared distance. -/
def rootClamp (z x : EReal) : EReal := Ideal.sqrt (max x z)

theorem rootClamp_mono (z : EReal) : Monotone (rootClamp z) :=
  fun _ _ h => sqrt_mono (max_le_max h le_rfl)

theorem rootClamp_top (z : EReal) : rootClamp z ⊤ = ⊤ := by
  unfold rootClamp
  rw [max_eq_left le_top, Ideal.sqrt_top]

/-- A fold of `min` from the top element over a whole finite type is the infimum of the family. -/
theorem fold_min_top_eq_iInf {ι : Type} [Fintype ι] (f : ι → EReal) :
    (Finset.univ : Finset ι).fold min ⊤ f = ⨅ i, f i := by
  classical
  rw [← Finset.inf_univ_eq_iInf]
  refine Finset.induction_on (Finset.univ : Finset ι) ?_ ?_
  · simp
  · intro a s ha ih
    rw [Finset.fold_insert ha, Finset.inf_insert, ih]

/-- A monotone map that fixes the top element goes through the infimum of a finite family. -/
theorem map_iInf_of_mono {ι : Type} [Fintype ι] {g : EReal → EReal} (hg : Monotone g) (htop : g ⊤ = ⊤)
    (f : ι → EReal) : g (⨅ i, f i) = ⨅ i, g (f i) := by
  rw [← fold_min_top_eq_iInf, ← fold_min_top_eq_iInf]
  have h := Finset.fold_hom (op := min) (op' := min) (m := g) (s := (Finset.univ : Finset ι)) (b := ⊤) (f := f)
    (fun x y => hg.map_min)
  rw [htop] at h
  exact h.symm

/-- The infimum over 16384 indices, taken as 16 consecutive chunks of 1024. -/
theorem iInf_chunks (f : Fin 16384 → EReal) :
    ⨅ j, f j = ⨅ c : Fin 16, ⨅ k : Fin 1024, f ⟨k.val + 1024 * c.val, by omega⟩ := by
  rw [← (finProdFinEquiv (m := 16) (n := 1024)).iInf_comp (g := f), iInf_prod]
  rfl

/-- A running minimum: start at the top element and take `min` with `T 0`, `T 1`, … in turn. -/
def runMin (T : ℕ → EReal) : ℕ → EReal
  | 0 => ⊤
  | n + 1 => min (runMin T n) (T n)

/-- After `n` updates the running minimum is the infimum of the first `n` values. -/
theorem runMin_eq_iInf (T : ℕ → EReal) (n : ℕ) : runMin T n = ⨅ c : Fin n, T c.val := by
  induction n with
  | zero => exact (iInf_of_empty _).symm
  | succ n ih =>
    show min (runMin T n) (T n) = _
    rw [ih]
    apply le_antisymm
    · refine le_iInf fun c => ?_
      refine Fin.lastCases ?_ (fun i => ?_) c
      · exact min_le_right _ _
      · exact (min_le_left _ _).trans (iInf_le (fun c : Fin n => T c.val) i)
    · exact le_min (le_iInf fun i => iInf_le (fun c : Fin (n + 1) => T c.val) i.castSucc)
        (iInf_le (fun c : Fin (n + 1) => T c.val) (Fin.last n))

/-- Sixteen successive `min` updates from the top element give the infimum of the sixteen values. -/
theorem min16_eq_iInf (T : Fin 16 → EReal) :
    min (min (min (min (min (min (min (min (min (min (min (min (min (min (min (min ⊤ (T 0)) (T 1)) (T 2)) (T 3)) (T 4)) (T 5))
      (T 6)) (T 7)) (T 8)) (T 9)) (T 10)) (T 11)) (T 12)) (T 13)) (T 14)) (T 15) = ⨅ c, T c := by
  have h := runMin_eq_iInf (fun c => if h : c < 16 then T ⟨c, h⟩ else ⊤) 16
  have e : (⨅ c : Fin 16, (if h : c.val < 16 then T ⟨c.val, h⟩ else ⊤)) = ⨅ c, T c :=
    iInf_congr fun c => by rw [dif_pos c.isLt]
  rw [← e, ← h]
  rfl

/-- A monotone map that fixes the top element, applied to the infimum over 16384 indices taken chunk by chunk, is the
    infimum of its values. -/
theorem map_iInf_chunks {g : EReal → EReal} (hg : Monotone g) (htop : g ⊤ = ⊤) (f : Fin 16384 → EReal) :
    g (⨅ c : Fin 16, ⨅ k : Fin 1024, f ⟨k.val + 1024 * c.val, by omega⟩) = ⨅ j, g (f j) := by
  rw [← iInf_chunks f, map_iInf_of_mono hg htop]

end Cert.NearestDist

end
-- ==== Proof.Spec.lean ====
/-
  The function both programs compute, at the extended reals: for each row `r` of a table `A` of 8192 rows of 128
  entries, the least distance to the 16384 rows of a table `B`,

      min over j of  sqrt (max (|A r|² + |B j|² - 2·⟨A r, B j⟩, 0)),

  the squared distance written by its expansion.  The minimum over the empty family being the top element, it is
  stated as an infimum.
-/
import Idealize.ShloMosaic.PureOps.Ideal
import Idealize.ShloMosaic.Lib.ValueIdx
import proofs.«177347_j764504179304_1_alg».proof.Proof.MinLaws

noncomputable section

namespace Cert.NearestDist

open Idealize.ShloMosaic Idealize.ShloMosaic.ValueIdx

/-- The word of `2.0` and the word of `0.0`, as both programs spell them. -/
abbrev two : EReal := Ideal.ofBits .f32 0x40000000#32
abbrev zero : EReal := Ideal.ofBits .f32 0x00000000#32

/-- The squared length of row `r` of a table with 128 columns. -/
def rowSq {n : Nat} (A : (⟨2, ![n, 128]⟩ : Shape).Idx → EReal) (r : Fin n) : EReal :=
  ∑ k : Fin 128, A (ix2 r k) * A (ix2 r k)

/-- The inner product of row `r` of `A` and row `j` of `B`. -/
def cross {n n' : Nat} (A : (⟨2, ![n, 128]⟩ : Shape).Idx → EReal) (B : (⟨2, ![n', 128]⟩ : Shape).Idx → EReal)
    (r : Fin n) (j : Fin n') : EReal :=
  ∑ k : Fin 128, A (ix2 r k) * B (ix2 j k)

/-- The squared distance by its expansion, from the two squared lengths and the inner product. -/
def dist2 (a b x : EReal) : EReal := (a + b) - two * x

/-- The least distance from row `r` of `A` to a row of `B`. -/
def nearestRow (A : (⟨2, ![8192, 128]⟩ : Shape).Idx → EReal) (B : (⟨2, ![16384, 128]⟩ : Shape).Idx → EReal)
    (r : Fin 8192) : EReal :=
  ⨅ j : Fin 16384, rootClamp zero (dist2 (rowSq A r) (rowSq B j) (cross A B r j))

/-- The result array: one column, row `r` holding `nearestRow A B r`. -/
def nearest (A : (⟨2, ![8192, 128]⟩ : Shape).Idx → EReal) (B : (⟨2, ![16384, 128]⟩ : Shape).Idx → EReal) :
    (⟨2, ![8192, 1]⟩ : Shape).Idx → EReal :=
  fun i => nearestRow A B (i 0)

end Cert.NearestDist

end
-- ==== Proof.HostSide.lean ====
/-
  What the host operations before the region leave in the three arrays the region reads: the first argument
  reshaped to a table of 8192 rows of 128 entries; the second reshaped to 16384 rows of 128 entries and narrowed,
  which on extended reals changes nothing; and, laid out as one row of 16384 entries, the squared length of each
  row of that second table: the sum over its 128 columns, from the word of `0.0`, of the entry times itself.
-/
import proofs.«177347_j764504179304_1_alg».proof.Proof.Gen.KernelIdeal.Value
import proofs.«177347_j764504179304_1_alg».proof.Proof.Spec
import Idealize.ShloMosaic.Lib.StableHlo.Run
import Idealize.ShloMosaic.Lib.Pipeline.Value
import Idealize.ShloMosaic.Lib.ValueIdx
import Idealize.ShloMosaic.PureOps.Ideal
import Idealize.ShloMosaic.PureOps.Ideal.Laws

noncomputable section

namespace Cert.KernelIdeal.HostSide

open Cert.KernelIdeal Cert.KernelIdeal.Gen Cert.NearestDist Idealize.ShloMosaic Idealize.ShloMosaic.TcCoe
  Idealize.ShloMosaic.ValueIdx Idealize.SL.Sem

variable (m : (ℓ : Loc nD τ sig) → Buf (Elt Ideal) ℓ)

/-- The first argument as a table of 8192 rows. -/
abbrev tblA (c : Dev nD) : FVec Ideal S8192x128 .f32 :=
  shapeCast S8192x128 (m ((c : Thread nD τ).loc main_arg0)) shapeCasts_S8192x1x1x128_S8192x128

/-- The second argument as a table of 16384 rows. -/
abbrev tblB (c : Dev nD) : FVec Ideal S16384x128 .f32 :=
  shapeCast S16384x128 (m ((c : Thread nD τ).loc main_arg1)) shapeCasts_S1x16384x1x128_S16384x128

/-! ## The arrays as whole terms of the arguments -/

theorem V_main_v0_eq (c : Dev nD) : (V m c main_v0 : S8192x128.Idx → Ideal .f32) = tblA m c := by
  dsimp only [Gen.V, Gen.hostOps0]; after_results; rfl

theorem V_main_v2_eq (c : Dev nD) :
    (V m c main_v2 : S16384x128.Idx → Ideal .bf16) = truncf .bf16 (tblB m c) bitsLt_bf16_f32 := by
  dsimp only [Gen.V, Gen.hostOps0]; after_results; rfl

theorem V_main_v6_eq (c : Dev nD) :
    (V m c main_v6 : S1x16384.Idx → Ideal .f32)
      = shapeCast S1x16384 (broadcastInDim S16384x1 ![0] bcast_S16384_S16384x1_0
          (Host.reduceAdd (mulf (tblB m c) (tblB m c)) (constant (F := Ideal) S_ .f32 0x00000000#32)
            reducesTo_S16384x128_S16384_d1 h_S_)) shapeCasts_S16384x1_S1x16384 := by
  dsimp only [Gen.V, Gen.hostOps0]; after_results; rfl

/-! ## The squared lengths, read at a column -/

/-- One row of 16384 entries read at column `j` is, before the change of layout, the one column read at row `j`;
    that column repeats the vector of sums; and the `j`-th sum runs over the entries `(j, k)` of the product table. -/
theorem sqLen_apply (y : FVec Ideal S16384x128 .f32) (j : Fin 16384) :
    shapeCast S1x16384 (broadcastInDim S16384x1 ![0] bcast_S16384_S16384x1_0
        (Host.reduceAdd (mulf y y) (constant (F := Ideal) S_ .f32 0x00000000#32)
          reducesTo_S16384x128_S16384_d1 h_S_)) shapeCasts_S16384x1_S1x16384 (ix2 (0 : Fin 1) j)
      = rowSq y j := by
  have hr : S16384x128.Reduces [1] S16384 := by decide
  rw [shapeCast_apply _ shapeCasts_S16384x1_S1x16384 (ix2 (0 : Fin 1) j) (ix2 j (0 : Fin 1))
    (by rw [Shape.rowMajor_val_two, Shape.rowMajor_val_two]; show j.val * 1 + 0 = 0 * 16384 + j.val; omega)]
  rw [broadcastInDim_apply ![0] bcast_S16384_S16384x1_0 _ (ix2 j (0 : Fin 1)) (ix1 j) (fun a => match a with
    | ⟨0, _⟩ => by show j.val = if (16384 : Nat) = 1 then 0 else j.val; rw [if_neg (by decide)])]
  simp only [Host.reduceAdd, Ideal.hostReduceAdd_def]
  rw [Ideal.hostReduceAdd_single reducesTo_S16384x128_S16384_d1 hr]
  show Ideal.ofBits .f32 0x00000000#32 + _ = _
  rw [Ideal.ofBits_zero_f32, zero_add]
  unfold rowSq
  refine Finset.sum_congr rfl fun k _ => ?_
  have ek : hr.lift (ix1 j) k = ix2 j (⟨k.val, k.isLt⟩ : Fin 128) :=
    funext fun a => Fin.ext (by match a with | ⟨0, _⟩ => rfl | ⟨1, _⟩ => rfl)
  rw [ek]
  rfl

/-! ## What the region finds -/

/-- The first operand array is the first argument's table. -/
theorem V_queries (c : Dev nD) (i : S8192x128.Idx) :
    (V m c main_v0 : S8192x128.Idx → Ideal .f32) i = tblA m c i :=
  congrFun (V_main_v0_eq m c) i

/-- The second operand array is the second argument's table: narrowing is the identity on extended reals. -/
theorem V_memory (c : Dev nD) (i : S16384x128.Idx) :
    (V m c main_v2 : S16384x128.Idx → Ideal .bf16) i = tblB m c i :=
  (congrFun (V_main_v2_eq m c) i).trans (truncf_apply (tblB m c) bitsLt_bf16_f32 i)

/-- The third operand array holds, at column `j`, the squared length of row `j` of the second argument's table. -/
theorem V_sqLen (c : Dev nD) (j : Fin 16384) :
    (V m c main_v6 : S1x16384.Idx → Ideal .f32) (ix2 (0 : Fin 1) j) = rowSq (tblB m c) j :=
  (congrFun (V_main_v6_eq m c) (ix2 (0 : Fin 1) j)).trans (sqLen_apply (tblB m c) j)

end Cert.KernelIdeal.HostSide

end
-- ==== Proof.ArraySide.lean ====
/-
  Where each window's block sits in its array, point by point of the grid of sixteen.  The first window takes
  512 rows at a time of the table of 8192 rows: the block at point `t` is rows `512·t … 512·t + 511`.  The
  second and third windows take their whole arrays at every point.  The result's window writes 512 rows at a
  time of the column of 8192 rows, again rows `512·t … 512·t + 511` at point `t`, and writes at every point,
  so the sixteen blocks tile the column: row `r` is in the block of point `r / 512`.
-/
import proofs.«177347_j764504179304_1_alg».proof.Proof.Gen.KernelIdeal.Value
import Idealize.ShloMosaic.Lib.Pipeline.Value
import Idealize.ShloMosaic.Lib.ValueIdx

noncomputable section

namespace Cert.KernelIdeal.ArraySide

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-! ## The block indices over the grid -/

/-- At point `t` the first window and the result's window are at block `(t, 0)`; the two whole windows at `(0, 0)`. -/
theorem blockIdx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The input blocks as entries of their arrays -/

/-- Entry `y` of the first window's block at point `t` is entry `(512·t + y 0, y 1)` of the table of 8192 rows. -/
theorem iblk_queries (c : Dev nD) (t : Fin cfg0.N) (y : S512x128.Idx) (k : S8192x128.Idx)
    (hk0 : (k 0).val = 512 * t.val + (y 0).val) (hk1 : (k 1).val = (y 1).val) :
    (iblk m c 0 t : Vec F S512x128 .f32) y = (V m c main_v0 : S8192x128.Idx → Elt F .f32) k := by
  obtain ⟨e0, e1, -⟩ := blockIdx t
  unfold iblk
  rw [View.read_apply]
  show (V m c main_v0 : S8192x128.Idx → Elt F .f32) _ = _
  refine congrArg (V m c main_v0 : S8192x128.Idx → Elt F .f32) (funext fun a => Fin.ext ?_)
  match a with
  | ⟨0, _⟩ => show win0_0.index t (0 : Fin 2) * 512 + 1 * (y 0).val = (k 0).val; rw [e0, hk0]; omega
  | ⟨1, _⟩ => show win0_0.index t (1 : Fin 2) * 128 + 1 * (y 1).val = (k 1).val; rw [e1, hk1]; omega

/-- The second window's block at every point is its whole array. -/
theorem iblk_memory (c : Dev nD) (t : Fin cfg0.N) (y : S16384x128.Idx) :
    (iblk m c 1 t : Vec F S16384x128 .bf16) y = (V m c main_v2 : S16384x128.Idx → Elt F .bf16) y := by
  obtain ⟨-, -, e2, e3, -⟩ := blockIdx t
  unfold iblk
  rw [View.read_apply]
  show (V m c main_v2 : S16384x128.Idx → Elt F .bf16) _ = _
  refine congrArg (V m c main_v2 : S16384x128.Idx → Elt F .bf16) (funext fun a => Fin.ext ?_)
  match a with
  | ⟨0, _⟩ => show win0_1.index t (0 : Fin 2) * 16384 + 1 * (y 0).val = (y 0).val; rw [e2]; omega
  | ⟨1, _⟩ => show win0_1.index t (1 : Fin 2) * 128 + 1 * (y 1).val = (y 1).val; rw [e3]; omega

/-- The third window's block at every point is its whole array. -/
theorem iblk_sqLen (c : Dev nD) (t : Fin cfg0.N) (y : S1x16384.Idx) :
    (iblk m c 2 t : Vec F S1x16384 .f32) y = (V m c main_v6 : S1x16384.Idx → Elt F .f32) y := by
  obtain ⟨-, -, -, -, e4, e5, -⟩ := blockIdx t
  unfold iblk
  rw [View.read_apply]
  show (V m c main_v6 : S1x16384.Idx → Elt F .f32) _ = _
  refine congrArg (V m c main_v6 : S1x16384.Idx → Elt F .f32) (funext fun a => Fin.ext ?_)
  match a with
  | ⟨0, _⟩ => show win0_2.index t (0 : Fin 2) * 1 + 1 * (y 0).val = (y 0).val; rw [e4]; omega
  | ⟨1, _⟩ => show win0_2.index t (1 : Fin 2) * 16384 + 1 * (y 1).val = (y 1).val; rw [e5]; omega

/-! ## The result's blocks -/

/-- Entry `y` of the block point `t` writes back lands in row `512·t + y 0` of the result column. -/
theorem emb_result (t : Fin cfg0.N) (y : S512x1.Idx) :
    ((((cfg0.win 3).blk t).view.emb y) 0).val = 512 * t.val + (y 0).val := by
  obtain ⟨-, -, -, -, -, -, e6, -⟩ := blockIdx t
  show win0_3.index t (0 : Fin 2) * 512 + 1 * (y 0).val = _
  rw [e6]; omega

/-- A row of the result column is in point `t`'s block iff each coordinate is in the block's range on its axis. -/
theorem mem_result (t : Fin cfg0.N) (i : S8192x1.Idx) :
    i ∈ ((cfg0.win 3).blk t).view.set
      ↔ ∀ a : Fin 2, win0_3.index t a * S512x1.size a ≤ (i a).val ∧ (i a).val < win0_3.index t a * S512x1.size a + S512x1.size a := by
  show i ∈ ((View.whole main_v7).slice (win0_3.rect t)).set ↔ _
  rw [View.set_slice_whole, Rect.mem_set_unit]
  exact Iff.rfl

/-- The sixteen blocks tile the result column: row `r` is in the block of point `r / 512`, which writes back. -/
theorem cover_result : ∀ i : S8192x1.Idx, ∃ t : Fin cfg0.N, (cfg0.win 3).flush t = true ∧ i ∈ ((cfg0.win 3).blk t).view.set := by
  intro i
  have hi0 : (i 0).val < 8192 := (i 0).isLt
  have hi1 : (i 1).val < 1 := (i 1).isLt
  have hN : cfg0.N = 16 := N_0
  obtain ⟨t, ht⟩ : ∃ t : Fin cfg0.N, t.val = (i 0).val / 512 := ⟨⟨(i 0).val / 512, by rw [hN]; omega⟩, rfl⟩
  obtain ⟨-, -, -, -, -, -, e6, e7⟩ := blockIdx t
  refine ⟨t, flush0_3 t, ?_⟩
  rw [mem_result]
  intro a
  match a with
  | ⟨0, _⟩ =>
    show win0_3.index t (0 : Fin 2) * 512 ≤ (i 0).val ∧ (i 0).val < win0_3.index t (0 : Fin 2) * 512 + 512
    rw [e6, ht]; omega
  | ⟨1, _⟩ =>
    show win0_3.index t (1 : Fin 2) * 1 ≤ (i 1).val ∧ (i 1).val < win0_3.index t (1 : Fin 2) * 1 + 1
    rw [e7]; omega

end Cert.KernelIdeal.ArraySide

end
-- ==== Proof.KernelBody.lean ====
/-
  What one grid point of the kernel leaves in its output block, as one pure term of the three input blocks: the
  query block `x0` (512 rows), the whole memory table `x1` and the row `x2` of the memory rows' squared lengths.
  The scratch column starts at +∞ and is replaced sixteen times by its minimum with a chunk's row minima; every read
  of the scratch follows a store of the whole column, so it reads that store's value.
-/
import proofs.«177347_j764504179304_1_alg».proof.Proof.Gen.KernelIdeal.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.Sem

variable {F : FTy → Type} [FloatOps F]

/-- Rows `1024·c … 1024·c + 1023` lie inside the table of 16384 rows. -/
theorem inbRows (c : Fin 16) :
    ∀ a, (![1024 * c.val, 0] : Fin 2 → Nat) a + (![1024, 128] : Fin 2 → Nat) a ≤ S16384x128.size a :=
  Rect.inb₂ (by have := c.isLt; show 1024 * c.val + 1024 ≤ 16384; omega) (by show 0 + 128 ≤ 128; omega)

/-- Columns `1024·c … 1024·c + 1023` lie inside the row of 16384 entries. -/
theorem inbCols (c : Fin 16) :
    ∀ a, (![0, 1024 * c.val] : Fin 2 → Nat) a + (![1, 1024] : Fin 2 → Nat) a ≤ S1x16384.size a :=
  Rect.inb₂ (by show 0 + 1 ≤ 1; omega) (by have := c.isLt; show 1024 * c.val + 1024 ≤ 16384; omega)

/-- Chunk `c` of the memory table: its rows `1024·c …`. -/
def memRows (x1 : Vec F S16384x128 .bf16) (c : Fin 16) : Vec F S1024x128 .bf16 :=
  View.ld x1 (Rect.unit ![1024 * c.val, 0] ![1024, 128] (inbRows c))

/-- Chunk `c` of the squared lengths: columns `1024·c …` of the one row. -/
def sqCols (x2 : Vec F S1x16384 .f32) (c : Fin 16) : Vec F S1x1024 .f32 :=
  View.ld x2 (Rect.unit ![0, 1024 * c.val] ![1, 1024] (inbCols c))

/-- The column the point stores: the clamp and root of the scratch after the sixteenth update. The updates are
    the body's store values, each over the scratch value before it; the first over the +∞ fill. -/
def blockOf (x0 : Vec F S512x128 .f32) (x1 : Vec F S16384x128 .bf16) (x2 : Vec F S1x16384 .f32) : Vec F S512x1 .f32 :=
  k0_pay2
    (k0_pay1 (k0_pay4 x0) (k0_pay5 x0) (k0_pay30 (memRows x1 15)) (k0_pay31 (sqCols x2 15))
    (k0_pay29 (k0_pay4 x0) (k0_pay5 x0) (memRows x1 14) (sqCols x2 14)
    (k0_pay28 (k0_pay26 (k0_pay4 x0) (sqCols x2 13)) (k0_pay27 (k0_pay5 x0) (memRows x1 13))
    (k0_pay25 (k0_pay4 x0) (k0_pay5 x0) (memRows x1 12) (sqCols x2 12)
    (k0_pay24 (k0_pay23 (k0_pay4 x0) (k0_pay5 x0) (memRows x1 11) (sqCols x2 11)
    (k0_pay22 (k0_pay4 x0) (k0_pay5 x0) (memRows x1 10) (sqCols x2 10)
    (k0_pay21 (k0_pay4 x0) (k0_pay5 x0) (memRows x1 9) (sqCols x2 9)
    (k0_pay20 (k0_pay4 x0) (k0_pay5 x0) (k0_pay19 (memRows x1 8)) (sqCols x2 8)
    (k0_pay18 (k0_pay4 x0) (k0_pay5 x0) (memRows x1 7) (sqCols x2 7)
    (k0_pay17 (k0_pay15 (k0_pay5 x0) (memRows x1 6)) (k0_pay16 (k0_pay4 x0) (sqCols x2 6)) (FloatOps.ofBits .f32 0x40000000#32)
    (k0_pay14 (k0_pay4 x0) (k0_pay5 x0) (memRows x1 5) (sqCols x2 5)
    (k0_pay13 (k0_pay12 (k0_pay4 x0) (k0_pay5 x0) (memRows x1 4) (sqCols x2 4))
    (k0_pay11 (k0_pay4 x0) (k0_pay5 x0) (memRows x1 3) (sqCols x2 3)
    (k0_pay10 (k0_pay4 x0) (k0_pay5 x0) (memRows x1 2) (sqCols x2 2)
    (k0_pay9 (k0_pay4 x0) (k0_pay5 x0) (k0_pay8 (memRows x1 1)) (sqCols x2 1)
    (k0_pay7 x0 (memRows x1 0) (sqCols x2 0) k0_pay6)))))))))))))))))

/-- The two zero offsets of a whole-column access. -/
theorem zeroOff : (![0, 0] : Fin 2 → Nat) = fun _ => 0 := by
  funext a; fin_cases a <;> rfl

/-- What the run's stores leave in the output block is `blockOf` of the input blocks, at any float instance. -/
theorem out_eq (c : Dev nD) (i : grid0.Coords) (arg1 : Memref sig .tc .vmem S512x128 .f32) (harg1 : arg1.IsWhole)
    (arg2 : Memref sig .tc .vmem S16384x128 .bf16) (harg2 : arg2.IsWhole) (arg3 : Memref sig .tc .vmem S1x16384 .f32)
    (harg3 : arg3.IsWhole) (arg4 : Memref sig .tc .vmem S512x1 .f32) (harg4 : arg4.IsWhole)
    (arg5 : Memref sig .tc .vmem S512x1 .f32) (harg5 : arg5.IsWhole)
    (x0 : Vec F S512x128 .f32) (x1 : Vec F S16384x128 .bf16) (x2 : Vec F S1x16384 .f32) :
    out0_A_3 c i arg1 harg1 arg2 harg2 arg3 harg3 arg4 harg4 arg5 harg5 x0 x1 x2 = blockOf x0 x1 x2 := by
  unfold out0_A_3
  rw [View.read_writes_eq_canon _ _ _ (cover0_A_3 c i arg1 harg1 arg2 harg2 arg3 harg3 arg4 harg4 arg5 harg5 x0 x1 x2)]
  unfold kernelRun0_A
  dsimp only
  rw [View.canon_unit_zero zeroOff]
  sl_unfold_run_names
  simp only [View.readCov_cons_toLoadRect, View.readAt_eq_ld, harg1.read_unread, harg2.read_unread, harg3.read_unread,
    View.ld_unit_zero (S := S512x128) zeroOff]
  rfl

end Cert.KernelIdeal.Body

end
-- ==== Proof.BodyValue.lean ====
/-
  The column one grid point stores, read entry by entry at the extended reals.
-/
import proofs.«177347_j764504179304_1_alg».proof.Proof.KernelBody
import proofs.«177347_j764504179304_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.BodyValue

open Cert.KernelIdeal Cert.KernelIdeal.Gen Cert.KernelIdeal.Body Cert.NearestDist
open Idealize.ShloMosaic Idealize.ShloMosaic.ValueIdx

/-- The word of +∞ is the top element. -/
theorem ofBits_inf : Ideal.ofBits .f32 0x7F800000#32 = ⊤ := by simp [Ideal.ofBits, Ideal.ieee]

/-- A vector of `a` entries cast to one column reads, at row `p`, entry `p`. -/
theorem colCast_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- One column broadcast along the rows of an `a × b` array reads, at `(p, c)`, its row `p`. -/
theorem colBroadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A reduced row index with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A row minimum from +∞ is the infimum of the row. -/
theorem rowMin_apply (v : FVec Ideal S512x1024 .f32) (acc : BitVec (FTy.bits .f32)) (h : S512x1024.Reduces [1] S512)
    (hφ : FKind.Formats .f32) (hacc : acc = FKind.minimumf.neutral .f32 hφ) (p : Fin 512) :
    multiReduction .minimumf [1] S512 v acc h hφ hacc (ix1 p) = ⨅ k : Fin 1024, v (ix2 p k) := by
  subst hacc
  rw [multiReduction_minimumf_eq_fold, h.fold_filter_drop_single]
  refine Eq.trans (b := ⨅ k : Fin (S512x1024.size 1), v (h.lift (ix1 p) k)) ?_ ?_
  · have e := fold_min_top_eq_iInf (ι := Fin (S512x1024.size 1)) (v ∘ h.lift (ix1 p))
    rw [← ofBits_inf] at e
    exact e
  · exact iInf_congr fun k => congrArg v (lift_row h p k)

/-- A row sum from zero is the sum of the row. -/
theorem rowSum_apply (v : FVec Ideal S512x128 .f32) (acc : BitVec (FTy.bits .f32)) (h : S512x128.Reduces [1] S512)
    (hφ : FKind.Formats .f32) (hacc : acc = FKind.add.neutral .f32 hφ) (p : Fin 512) :
    multiReduction .add [1] S512 v acc h hφ hacc (ix1 p) = ∑ k : Fin 128, v (ix2 p k) := by
  rw [Ideal.multiReduction_add_single]
  exact Finset.sum_congr rfl fun k _ => congrArg v (lift_row h p k)

theorem lhs_0 (i : S512x1024.Idx) (q : dot_S512x128_S1024x128_S512x1024_1_1_0_0_n_n.contr.Idx) :
    (dot_S512x128_S1024x128_S512x1024_1_1_0_0_n_n.lhsIdx i q 0).val = (i 0).val := by
  unfold DotDims.lhsIdx
  rw [dif_neg (show ¬(0 : Fin S512x128.rank) ∈ dot_S512x128_S1024x128_S512x1024_1_1_0_0_n_n.lhsBatch by decide), dif_pos (show (0 : Fin S512x128.rank) ∈ dot_S512x128_S1024x128_S512x1024_1_1_0_0_n_n.lhsNonContracting by decide)]
  rfl
theorem lhs_1 (i : S512x1024.Idx) (q : dot_S512x128_S1024x128_S512x1024_1_1_0_0_n_n.contr.Idx) :
    (dot_S512x128_S1024x128_S512x1024_1_1_0_0_n_n.lhsIdx i q 1).val = (q ⟨0, by decide⟩).val :=
  dot_S512x128_S1024x128_S512x1024_1_1_0_0_n_n.lhsIdx_val_of_single rfl i q
theorem rhs_0 (i : S512x1024.Idx) (q : dot_S512x128_S1024x128_S512x1024_1_1_0_0_n_n.contr.Idx) :
    (dot_S512x128_S1024x128_S512x1024_1_1_0_0_n_n.rhsIdx i q 0).val = (i 1).val := by
  unfold DotDims.rhsIdx
  rw [dif_neg (show ¬(0 : Fin S1024x128.rank) ∈ dot_S512x128_S1024x128_S512x1024_1_1_0_0_n_n.rhsBatch by decide), dif_pos (show (0 : Fin S1024x128.rank) ∈ dot_S512x128_S1024x128_S512x1024_1_1_0_0_n_n.rhsNonContracting by decide)]
  rfl
theorem rhs_1 (i : S512x1024.Idx) (q : dot_S512x128_S1024x128_S512x1024_1_1_0_0_n_n.contr.Idx) :
    (dot_S512x128_S1024x128_S512x1024_1_1_0_0_n_n.rhsIdx i q 1).val = (q ⟨0, by decide⟩).val :=
  dot_S512x128_S1024x128_S512x1024_1_1_0_0_n_n.rhsIdx_val_of_single rfl i q

/-- The product of a query block with a memory chunk, rows against rows, into a zero accumulator: at `(p, k)`
    the inner product of query row `p` and memory row `k`. -/
theorem cross_apply (fb : FVec Ideal S512x128 .bf16) (mc : FVec Ideal S1024x128 .bf16) (p : Fin 512) (k : Fin 1024) :
    matmul dot_S512x128_S1024x128_S512x1024_1_1_0_0_n_n none fb mc (constant S512x1024 .f32 0x00000000#32) (ix2 p k)
      = ∑ q : Fin 128, fb (ix2 p q) * mc (ix2 k q) := by
  simp only [matmul]
  rw [Ideal.matmul_constant_zero_apply, ← Equiv.sum_comp (ValueIdx.contrEquiv1 dot_S512x128_S1024x128_S512x1024_1_1_0_0_n_n 128 rfl rfl).symm]
  refine Finset.sum_congr rfl fun q _ => ?_
  have hk := ValueIdx.contrEquiv1_symm_val dot_S512x128_S1024x128_S512x1024_1_1_0_0_n_n 128 rfl rfl q
  have el : dot_S512x128_S1024x128_S512x1024_1_1_0_0_n_n.lhsIdx (ix2 p k) ((ValueIdx.contrEquiv1 dot_S512x128_S1024x128_S512x1024_1_1_0_0_n_n 128 rfl rfl).symm q) = ix2 p q := funext fun a => Fin.ext (by
    match a with
    | ⟨0, _⟩ => exact lhs_0 _ _
    | ⟨1, _⟩ => exact (lhs_1 _ _).trans hk)
  have er : dot_S512x128_S1024x128_S512x1024_1_1_0_0_n_n.rhsIdx (ix2 p k) ((ValueIdx.contrEquiv1 dot_S512x128_S1024x128_S512x1024_1_1_0_0_n_n 128 rfl rfl).symm q) = ix2 k q := funext fun a => Fin.ext (by
    match a with
    | ⟨0, _⟩ => exact rhs_0 _ _
    | ⟨1, _⟩ => exact (rhs_1 _ _).trans hk)
  rw [el, er]

/-- One chunk's row minima, as the body writes them, at row `p`: the infimum over the chunk's 1024 memory rows of the
    expanded squared distance. -/
theorem tile_apply (f2 : FVec Ideal S512x1 .f32) (m2c : FVec Ideal S1x1024 .f32) (w : Ideal .f32)
    (fb : FVec Ideal S512x128 .bf16) (mc : FVec Ideal S1024x128 .bf16)
    (h1 : S512x1.Broadcasts S512x1024) (h2 : S1x1024.Broadcasts S512x1024) (hr : S512x1024.Reduces [1] S512)
    (acc : BitVec (FTy.bits .f32)) (hφ : FKind.Formats .f32) (hacc : acc = FKind.minimumf.neutral .f32 hφ)
    (hsc : S512.ShapeCasts S512x1) (p : Fin 512) :
    shapeCast S512x1 (multiReduction .minimumf [1] S512
        (subf (addf (broadcastTo S512x1024 f2 h1) (broadcastTo S512x1024 m2c h2))
          (mulf (broadcast S512x1024 w)
            (matmul dot_S512x128_S1024x128_S512x1024_1_1_0_0_n_n none fb mc (constant S512x1024 .f32 0x00000000#32))))
        acc hr hφ hacc) hsc (ix2 p (0 : Fin 1))
      = ⨅ k : Fin 1024, (f2 (ix2 p (0 : Fin 1)) + m2c (ix2 (0 : Fin 1) k)) - w * ∑ q : Fin 128, fb (ix2 p q) * mc (ix2 k q) := by
  rw [colCast_apply, rowMin_apply]
  refine iInf_congr fun k => ?_
  rw [subf_apply, addf_apply, mulf_apply, broadcast_apply, colBroadcast_apply, broadcastTo_1b_ab_apply, cross_apply]

theorem sqrt_apply {s : Shape} (a : FVec Ideal s .f32) (i : s.Idx) : sqrt a i = Ideal.sqrt (a i) := rfl

/-- One chunk's contribution at query row `p`: the least expanded squared distance to the chunk's 1024 memory rows,
    from the chunk's rows `mc` and their squared lengths `m2c`. -/
def chunkMin (x0 : FVec Ideal S512x128 .f32) (m2c : FVec Ideal S1x1024 .f32) (mc : FVec Ideal S1024x128 .bf16)
    (p : Fin 512) : EReal :=
  ⨅ k : Fin 1024, dist2 (rowSq x0 p) (m2c (ix2 (0 : Fin 1) k)) (∑ q : Fin 128, x0 (ix2 p q) * mc (ix2 k q))

/-- The chunk's row minima as the body writes them — the query block's squared lengths by a row sum, the block
    narrowed for the product — are `chunkMin`. -/
theorem tile_chunk (x0 : FVec Ideal S512x128 .f32) (m2c : FVec Ideal S1x1024 .f32) (mc : FVec Ideal S1024x128 .bf16)
    (w : Ideal .f32) (hw : w = two)
    (h1 : S512x1.Broadcasts S512x1024) (h2 : S1x1024.Broadcasts S512x1024) (hr : S512x1024.Reduces [1] S512)
    (acc : BitVec (FTy.bits .f32)) (hφ : FKind.Formats .f32) (hacc : acc = FKind.minimumf.neutral .f32 hφ)
    (hsc : S512.ShapeCasts S512x1) (hr' : S512x128.Reduces [1] S512) (acc' : BitVec (FTy.bits .f32))
    (hφ' : FKind.Formats .f32) (hacc' : acc' = FKind.add.neutral .f32 hφ') (hb : FTy.bits .bf16 < FTy.bits .f32)
    (p : Fin 512) :
    shapeCast S512x1 (multiReduction .minimumf [1] S512
        (subf (addf (broadcastTo S512x1024
            (shapeCast S512x1 (multiReduction .add [1] S512 (mulf x0 x0) acc' hr' hφ' hacc') hsc) h1)
            (broadcastTo S512x1024 m2c h2))
          (mulf (broadcast S512x1024 w)
            (matmul dot_S512x128_S1024x128_S512x1024_1_1_0_0_n_n none (truncf .bf16 x0 hb) mc
              (constant S512x1024 .f32 0x00000000#32))))
        acc hr hφ hacc) hsc (ix2 p (0 : Fin 1))
      = chunkMin x0 m2c mc p := by
  rw [tile_apply]
  unfold chunkMin dist2 rowSq
  refine iInf_congr fun k => ?_
  rw [colCast_apply, rowSum_apply, hw]
  simp only [mulf_apply, truncf_apply]

/-- Entry `p` of the column a grid point stores: the clamp and root of the least, over the sixteen chunks, of the
    chunks' contributions. -/
theorem block_apply (x0 : FVec Ideal S512x128 .f32) (x1 : FVec Ideal S16384x128 .bf16) (x2 : FVec Ideal S1x16384 .f32)
    (p : Fin 512) :
    blockOf (F := Ideal) x0 x1 x2 (ix2 p (0 : Fin 1))
      = rootClamp zero (⨅ c : Fin 16, chunkMin x0 (sqCols (F := Ideal) x2 c) (memRows (F := Ideal) x1 c) p) := by
  refine Eq.trans ?_ (congrArg (rootClamp zero) (min16_eq_iInf fun c => chunkMin x0 (sqCols (F := Ideal) x2 c) (memRows (F := Ideal) x1 c) p))
  simp only [blockOf, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, sqrt_apply, maximumf_apply, minimumf_apply, broadcast_apply]
  unfold rootClamp
  refine congrArg (fun a => Ideal.sqrt (max a zero)) ?_
  iterate 16 (refine congrArg₂ min ?_ (tile_chunk (p := p) (hw := rfl) ..))
  exact ofBits_inf

/-- Chunk `c` of the memory table at `(k, q)` is the table at row `k + 1024·c`. -/
theorem memRows_apply (x1 : FVec Ideal S16384x128 .bf16) (c : Fin 16) (k : Fin 1024) (q : Fin 128) :
    memRows (F := Ideal) x1 c (ix2 k q)
      = x1 (ix2 (⟨k.val + 1024 * c.val, by have := k.isLt; have := c.isLt; omega⟩ : Fin 16384) q) := by
  show x1 _ = x1 _
  refine congrArg x1 (funext fun a => Fin.ext ?_)
  match a with
  | ⟨0, _⟩ => show 1024 * c.val + 1 * k.val = k.val + 1024 * c.val; omega
  | ⟨1, _⟩ => show 0 + 1 * q.val = q.val; omega

/-- Chunk `c` of the squared lengths at column `k` is the row at column `k + 1024·c`. -/
theorem sqCols_apply (x2 : FVec Ideal S1x16384 .f32) (c : Fin 16) (k : Fin 1024) :
    sqCols (F := Ideal) x2 c (ix2 (0 : Fin 1) k)
      = x2 (ix2 (0 : Fin 1) (⟨k.val + 1024 * c.val, by have := k.isLt; have := c.isLt; omega⟩ : Fin 16384)) := by
  show x2 _ = x2 _
  refine congrArg x2 (funext fun a => Fin.ext ?_)
  match a with
  | ⟨0, _⟩ => show 0 + 1 * 0 = 0; omega
  | ⟨1, _⟩ => show 1024 * c.val + 1 * k.val = k.val + 1024 * c.val; omega

/-- When the query block's row `p` is row `r` of the table `A`, the memory block is the table `B`, and the third
    block holds the squared lengths of `B`'s rows, entry `p` of the stored column is the least distance from row `r`
    of `A` to a row of `B`: the running minimum over the chunks is the minimum over all rows, and the monotone
    clamp-and-root goes through it. -/
theorem block_eq_nearest (A : FVec Ideal S8192x128 .f32) (B : FVec Ideal S16384x128 .f32)
    (x0 : FVec Ideal S512x128 .f32) (x1 : FVec Ideal S16384x128 .bf16) (x2 : FVec Ideal S1x16384 .f32)
    (r : Fin 8192) (p : Fin 512)
    (h0 : ∀ q : Fin 128, x0 (ix2 p q) = A (ix2 r q)) (h1 : ∀ i, x1 i = B i)
    (h2 : ∀ j : Fin 16384, x2 (ix2 (0 : Fin 1) j) = rowSq B j) :
    blockOf (F := Ideal) x0 x1 x2 (ix2 p (0 : Fin 1)) = nearestRow A B r := by
  rw [block_apply]
  unfold nearestRow
  refine Eq.trans ?_ (map_iInf_chunks (rootClamp_mono zero) (rootClamp_top zero)
    (fun j => dist2 (rowSq A r) (rowSq B j) (cross A B r j)))
  refine congrArg (rootClamp zero) (iInf_congr fun c => ?_)
  unfold chunkMin
  refine iInf_congr fun k => ?_
  have hs : rowSq x0 p = rowSq A r := by
    unfold rowSq; exact Finset.sum_congr rfl fun q _ => by rw [h0]
  have hc : (∑ q : Fin 128, x0 (ix2 p q) * memRows (F := Ideal) x1 c (ix2 k q))
      = cross A B r (⟨k.val + 1024 * c.val, by have := k.isLt; have := c.isLt; omega⟩ : Fin 16384) := by
    unfold cross; exact Finset.sum_congr rfl fun q _ => by rw [h0, memRows_apply, h1]
  rw [sqCols_apply, h2, hs, hc]

end Cert.KernelIdeal.BodyValue

end
-- ==== Proof.Flushed.lean ====
/-
  What each grid point writes back is its block of the table of least distances: entry `y` of point `t`'s block
  lands in row `512·t + y 0` of the result column, and holds the least distance from that row of the first table
  to a row of the second.
-/
import proofs.«177347_j764504179304_1_alg».proof.Proof.Gen.KernelIdeal.Value
import proofs.«177347_j764504179304_1_alg».proof.Proof.Spec
import proofs.«177347_j764504179304_1_alg».proof.Proof.HostSide
import proofs.«177347_j764504179304_1_alg».proof.Proof.ArraySide
import proofs.«177347_j764504179304_1_alg».proof.Proof.KernelBody
import proofs.«177347_j764504179304_1_alg».proof.Proof.BodyValue

noncomputable section

namespace Cert.KernelIdeal.Flushed

open Cert.KernelIdeal Cert.KernelIdeal.Gen Cert.NearestDist Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- An index of a one-column block is its row and column zero. -/
theorem col_eq (y : S512x1.Idx) : y = ix2 (y 0) (0 : Fin 1) := by
  funext a
  match a with
  | ⟨0, _⟩ => rfl
  | ⟨1, _⟩ => exact Fin.ext (by have h : (y 1).val < 1 := (y 1).isLt; show (y 1).val = 0; omega)

/-- Entry `y` of the column point `t` stores is the table of least distances at any index `i` of row `512·t + y 0`:
    the query block's row `y 0` is that row of the first table, the other two blocks are the whole second table and
    its rows' squared lengths. -/
theorem column_eq (c : Dev nD) (t : Fin cfg0.N) (y : S512x1.Idx) (i : S8192x1.Idx)
    (hi : (i 0).val = 512 * t.val + (y 0).val) :
    Body.blockOf (F := Ideal) (iblk m c 0 t) (iblk m c 1 t) (iblk m c 2 t) y
      = nearest (HostSide.tblA m c) (HostSide.tblB m c) i := by
  refine (congrArg (Body.blockOf (F := Ideal) (iblk m c 0 t) (iblk m c 1 t) (iblk m c 2 t)) (col_eq y)).trans ?_
  exact BodyValue.block_eq_nearest (HostSide.tblA m c) (HostSide.tblB m c) (iblk m c 0 t) (iblk m c 1 t) (iblk m c 2 t)
    (i 0) (y 0)
    (fun q => (ArraySide.iblk_queries m c t (ix2 (y 0) q) (ix2 (i 0) q) hi rfl).trans (HostSide.V_queries m c (ix2 (i 0) q)))
    (fun j => (ArraySide.iblk_memory m c t j).trans (HostSide.V_memory m c j))
    (fun j => (ArraySide.iblk_sqLen m c t (ix2 (0 : Fin 1) j)).trans (HostSide.V_sqLen m c j))

theorem flushed_eq (c : Dev nD) (t : Fin cfg0.N) :
    (dats m 0 c).flushed 3 t
      = ((cfg0.win 3).blk t).view.read (Elt Ideal) (nearest (HostSide.tblA m c) (HostSide.tblB m c)) := by
  rw [Cert.KernelIdeal.Value.flushed3_A m c t, Body.out_eq]
  funext y
  exact column_eq m c t y _ (ArraySide.emb_result t y)

end Cert.KernelIdeal.Flushed

end
-- ==== Proof.RefSide.lean ====
/-
  The reference program computes the table `nearest`: read at a row, its last operation broadcasts a minimum taken
  along the second axis of a table whose entry at `(r, j)` is the root of the clamped expansion
  `(|A r|² + |B j|²) - 2·⟨A r, B j⟩`, with `A` and `B` the two reshaped arguments.  The sums start at the word of
  `0.0`, which is the zero of the extended reals, and the minimum starts at the word of `+∞`, which is their top
  element, so a fold of `min` from it over all of the second axis is the infimum of the family.
-/
import proofs.«177347_j764504179304_1_alg».proof.Proof.Gen.ReferenceIdeal.Read
import proofs.«177347_j764504179304_1_alg».proof.Proof.Spec
import Idealize.ShloMosaic.PureOps.Reduce
import Idealize.ShloMosaic.PureOps.Ideal
import Idealize.ShloMosaic.PureOps.Ideal.Laws
import Idealize.ShloMosaic.Lib.ValueIdx

noncomputable section

namespace Cert.NearestDist.RefSide

open Cert.ReferenceIdeal Cert.ReferenceIdeal.Gen Cert.ReferenceIdeal.Read Idealize.ShloMosaic Idealize.ShloMosaic.ValueIdx

/-! ## The composed index maps, by coordinates -/

/-- Through the two broadcasts of the first squared length, entry `(r, j)` reads row `r`; its `k`-th summand is at `(r, k)`. -/
theorem idx_sqA (r : Fin 8192) (j : Fin 16384) (k : Fin 128) :
    idx_main_v3 (idx_main_v7 (idx_main_v9 (ix2 r j))) k = ix2 r k :=
  funext fun a => Fin.ext (by match a with | ⟨0, _⟩ => rfl | ⟨1, _⟩ => rfl)

/-- Through the two broadcasts of the second squared length, entry `(r, j)` reads row `j`; its `k`-th summand is at `(j, k)`. -/
theorem idx_sqB (r : Fin 8192) (j : Fin 16384) (k : Fin 128) :
    idx_main_v5 (idx_main_v8 (idx_main_v10 (ix2 r j))) k = ix2 j k :=
  funext fun a => Fin.ext (by match a with | ⟨0, _⟩ => rfl | ⟨1, _⟩ => rfl)

/-- The contraction's left factor at `(r, j)`, summand `k`, is at `(r, k)`. -/
theorem idx_dotL (r : Fin 8192) (j : Fin 16384) (k : Fin 128) :
    lidx_main_v6 (ix2 r j) k = ix2 r k :=
  funext fun a => Fin.ext (by match a with | ⟨0, _⟩ => rfl | ⟨1, _⟩ => rfl)

/-- The contraction's right factor at `(r, j)`, summand `k`, is at `(j, k)`. -/
theorem idx_dotR (r : Fin 8192) (j : Fin 16384) (k : Fin 128) :
    ridx_main_v6 (ix2 r j) k = ix2 j k :=
  funext fun a => Fin.ext (by match a with | ⟨0, _⟩ => rfl | ⟨1, _⟩ => rfl)

/-! ## The table under the minimum -/

/-- A sum that starts at the word of `0.0` is the sum. -/
theorem zeroWord_add (x : EReal) : Ideal.ofBits .f32 0x00000000#32 + x = x := by
  rw [Ideal.ofBits_zero_f32, zero_add]

/-- Entry `(r, j)` of the table the minimum is taken over: the root of the clamped expansion of the squared
    distance between row `r` of the first reshaped argument and row `j` of the second. -/
theorem root_apply (x0 : (⟨S8192x1x1x128, .f32⟩ : BufTy).Contents (Elt Ideal))
    (x1 : (⟨S1x16384x1x128, .f32⟩ : BufTy).Contents (Elt Ideal)) (r : Fin 8192) (j : Fin 16384) :
    val_main_v17 (F := Ideal) x0 x1 (ix2 r j)
      = rootClamp zero (dist2 (rowSq (val_main_v0 (F := Ideal) x0) r) (rowSq (val_main_v1 (F := Ideal) x1) j)
          (cross (val_main_v0 (F := Ideal) x0) (val_main_v1 (F := Ideal) x1) r j)) := by
  rw [val_main_v17_apply, val_main_v16_apply, val_main_v15_apply, val_main_cst_2_apply, val_main_v14_apply,
    val_main_v13_apply, val_main_v12_apply, val_main_cst_1_apply, val_main_v11_apply, val_main_v10_apply,
    val_main_v9_apply, val_main_v8_apply, val_main_v7_apply, val_main_v6_apply, val_main_v5_apply,
    val_main_cst_0_apply, val_main_v3_apply, val_main_cst_apply]
  simp only [val_main_v4_apply, val_main_v2_apply, idx_sqA, idx_sqB, idx_dotL, idx_dotR, Ideal.ofBits_def,
    Ideal.addf_def, Ideal.subf_def, Ideal.mulf_def, Ideal.maximumf_def, Ideal.hostUnary_sqrt_def, zeroWord_add]
  unfold rootClamp dist2 rowSq cross
  rfl

/-! ## The minimum along the second axis -/

/-- Row `i 0` of the result with coordinate `k` put back on the second axis is `(i 0, k)`. -/
theorem lift_row (h : S8192x16384.Reduces [1] S8192) (i : S8192x1.Idx) (k : Fin (S8192x16384.size 1)) :
    h.lift (idx_main_v19 i) k = ix2 (i 0) (⟨k.val, k.isLt⟩ : Fin 16384) :=
  funext fun c => Fin.ext (by match c with | ⟨0, _⟩ => rfl | ⟨1, _⟩ => rfl)

/-- The word of `+∞` is the top element. -/
theorem infWord_eq_top : Ideal.ofBits .f32 0x7F800000#32 = (⊤ : EReal) := by
  simp [Ideal.ofBits, Ideal.ieee]

/-- The reference's result is `nearest` of the two reshaped arguments. -/
theorem reference_eq (x0 : (⟨Cert.ReferenceIdeal.S8192x1x1x128, .f32⟩ : BufTy).Contents (Elt Ideal)) (x1 : (⟨Cert.ReferenceIdeal.S1x16384x1x128, .f32⟩ : BufTy).Contents (Elt Ideal)) :
    Cert.ReferenceIdeal.Read.val_main_v19 (F := Ideal) x0 x1
      = Cert.NearestDist.nearest (Cert.ReferenceIdeal.Read.val_main_v0 (F := Ideal) x0) (Cert.ReferenceIdeal.Read.val_main_v1 (F := Ideal) x1) := by
  funext i
  have hr : S8192x16384.Reduces [1] S8192 := by decide
  rw [val_main_v19_apply]
  unfold val_main_v18
  refine (Host.reduce_eq_fold_single (α := Ideal .f32) (s := S8192x16384) (t := S8192) (u := S_)
    (FloatOps.minimumf : Ideal .f32 → Ideal .f32 → Ideal .f32) (val_main_v17 (F := Ideal) x0 x1)
    (val_main_cst_3 (F := Ideal)) reducesTo_S8192x16384_S8192_d1 hr h_S_ (idx_main_v19 i)).trans ?_
  have hf : (val_main_v17 (F := Ideal) x0 x1 ∘ hr.lift (idx_main_v19 i))
      = fun j : Fin 16384 => rootClamp zero (dist2 (rowSq (val_main_v0 (F := Ideal) x0) (i 0))
          (rowSq (val_main_v1 (F := Ideal) x1) j) (cross (val_main_v0 (F := Ideal) x0) (val_main_v1 (F := Ideal) x1) (i 0) j)) :=
    funext fun k => (congrArg (val_main_v17 (F := Ideal) x0 x1) (lift_row hr i k)).trans (root_apply x0 x1 (i 0) ⟨k.val, k.isLt⟩)
  have e := fold_min_top_eq_iInf (fun j : Fin 16384 => rootClamp zero (dist2 (rowSq (val_main_v0 (F := Ideal) x0) (i 0))
          (rowSq (val_main_v1 (F := Ideal) x1) j) (cross (val_main_v0 (F := Ideal) x0) (val_main_v1 (F := Ideal) x1) (i 0) j)))
  rw [← infWord_eq_top] at e
  refine Eq.trans ?_ e
  exact congrArg (fun f => Finset.fold min (Ideal.ofBits .f32 0x7F800000#32) f (Finset.univ : Finset (Fin 16384))) hf

end Cert.NearestDist.RefSide

end
-- ==== Proof.Claims.lean ====
/-
  The result array after the run, and the claims.  Every grid point writes back its block of the table of
  least distances and the sixteen blocks tile the result column, so after the run the column holds that table
  of the two reshaped arguments.  The reference's result is the same table of its own reshaped arguments, and
  the two programs reshape their arguments alike; so from memories that agree on the arguments the two results
  are equal, entry by entry, as extended reals.
-/
import proofs.«177347_j764504179304_1_alg».proof.Defs
import proofs.«177347_j764504179304_1_alg».proof.Proof.Gen.Kernel.Frame
import proofs.«177347_j764504179304_1_alg».proof.Proof.Gen.KernelIdeal.Value
import proofs.«177347_j764504179304_1_alg».proof.Proof.Gen.ReferenceIdeal.Run
import proofs.«177347_j764504179304_1_alg».proof.Proof.Gen.ReferenceIdeal.Read
import proofs.«177347_j764504179304_1_alg».proof.Proof.Gen.Pre_finite_inputs
import proofs.«177347_j764504179304_1_alg».proof.Proof.Flushed
import proofs.«177347_j764504179304_1_alg».proof.Proof.ArraySide
import proofs.«177347_j764504179304_1_alg».proof.Proof.RefSide
import Idealize.ShloMosaic.Lib.Pipeline.Value

noncomputable section

namespace Cert.Proof.NearestClaims

open Idealize.ShloMosaic Idealize.ShloMosaic.TcCoe Idealize.SL.Sem
open Idealize.ShloMosaic.Pipeline (Dat)
open Cert.NearestDist

/-! ## The kernel's result array -/

section KernelSide

open Cert.KernelIdeal Cert.KernelIdeal.Gen

variable (m : (ℓ : Loc nD τ sig) → Buf (Elt Ideal) ℓ)

/-- After the run the result column holds the table of least distances of the two reshaped arguments: each
    point's write-back is its block of that table, and the blocks tile the column. -/
theorem final (c : Dev nD) :
    (dats m 0 c).arrAt 3 cfg0.N = nearest (HostSide.tblA m c) (HostSide.tblB m c) :=
  (dats m 0 c).arrAt_eq_of_cover 3 _ (fun t _ => Flushed.flushed_eq m c t) ArraySide.cover_result

/-- The kernel's run, read: the result column at that table, the two arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v7) = nearest (HostSide.tblA m c) (HostSide.tblB m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final m c), (h c).2⟩) (Cert.KernelIdeal.Value.run_blocks m ρ)

end KernelSide

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- No operation was rewritten: the idealization is the program's own text read at the extended reals. -/
theorem preserves : Cert.preserves_Kernel_KernelIdeal := trivial

/-- Both programs end with the table of least distances of their reshaped arguments; the arguments agree and
    the reshapes are the same, so the two results are one array. -/
theorem algebraic : Cert.algebraic_KernelIdeal_ReferenceIdeal := by
  intro m ρ m' ρ' _ hagree
  refine ⟨fun c => nearest (Cert.KernelIdeal.HostSide.tblA m c) (Cert.KernelIdeal.HostSide.tblB m c), run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.NearestDist.RefSide.reference_eq, (hagree c).1, (hagree c).2]
  rfl

end Cert.Proof.NearestClaims

end
-- ==== Proof.lean ====
/-
  For each of 8192 query rows, the least Euclidean distance to 16384 memory rows, the squared distance taken by
  its expansion |a|² + |b|² - 2·⟨a, b⟩, clamped at zero, then rooted.

  The kernel sweeps the memory rows in sixteen chunks of 1024, keeps a running minimum of the squared distances
  that starts at +∞, and clamps and roots once at the end; the reference clamps and roots every squared distance
  and takes one minimum over all memory rows. On the extended reals the clamp followed by the root is monotone and
  fixes +∞, so it goes through a minimum; and the running minimum over the chunks is the minimum over all rows.
  The squared lengths and the inner products are the same sums on both sides: a change of float format is the
  identity there, and a product into a zero accumulator, a row sum from zero and the host's contraction and sum
  are the same finite sums. No law used needs the inputs to be finite.
-/
import proofs.«177347_j764504179304_1_alg».proof.Defs
import proofs.«177347_j764504179304_1_alg».proof.Proof.Gen.Kernel
import proofs.«177347_j764504179304_1_alg».proof.Proof.Gen.Kernel.Skeleton
import proofs.«177347_j764504179304_1_alg».proof.Proof.Gen.Kernel.Launch
import proofs.«177347_j764504179304_1_alg».proof.Proof.Gen.Kernel.Points
import proofs.«177347_j764504179304_1_alg».proof.Proof.Gen.Kernel.Frame
import proofs.«177347_j764504179304_1_alg».proof.Proof.Gen.KernelIdeal
import proofs.«177347_j764504179304_1_alg».proof.Proof.Gen.KernelIdeal.Skeleton
import proofs.«177347_j764504179304_1_alg».proof.Proof.Gen.KernelIdeal.Launch
import proofs.«177347_j764504179304_1_alg».proof.Proof.Gen.KernelIdeal.Points
import proofs.«177347_j764504179304_1_alg».proof.Proof.Gen.KernelIdeal.Frame
import proofs.«177347_j764504179304_1_alg».proof.Proof.Gen.ReferenceIdeal
import proofs.«177347_j764504179304_1_alg».proof.Proof.Gen.Pre_finite_inputs
import proofs.«177347_j764504179304_1_alg».proof.Proof.Gen.KernelIdeal.Value
import proofs.«177347_j764504179304_1_alg».proof.Proof.Gen.ReferenceIdeal.Run
import proofs.«177347_j764504179304_1_alg».proof.Proof.Gen.ReferenceIdeal.Read
import proofs.«177347_j764504179304_1_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    NearestClaims.frame_k, NearestClaims.frame_ki, NearestClaims.frame_ri, NearestClaims.preserves,
    NearestClaims.algebraic⟩

end Cert.Proof

end
